-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x4096 : Shape := ⟨3, ![2, 1024, 4096]⟩
abbrev S11008 : Shape := ⟨1, ![11008]⟩
abbrev S2250000 : Shape := ⟨1, ![2250000]⟩
abbrev S11008x2048 : Shape := ⟨2, ![11008, 2048]⟩
abbrev S_ : Shape := ⟨0, ![]⟩

class Facts : Prop where
  bcast_S_S2x1024x4096 : S_.BroadcastsInDim S2x1024x4096 (![] : Fin 0 → Fin S2x1024x4096.rank)
  reducesTo_S2x1024x4096_S_d0_1_2 : S2x1024x4096.ReducesTo [0, 1, 2] S_
  h_S_ : 0 < S_.numel
  bcast_S_S11008 : S_.BroadcastsInDim S11008 (![] : Fin 0 → Fin S11008.rank)
  reducesTo_S11008_S_d0 : S11008.ReducesTo [0] S_
  bcast_S_S2250000 : S_.BroadcastsInDim S2250000 (![] : Fin 0 → Fin S2250000.rank)
  reducesTo_S2250000_S_d0 : S2250000.ReducesTo [0] S_

variable [Facts]

def fn {F : FTy → Type} [FloatOps F] (main_arg0 : FVec F S2x1024x4096 .f32) (main_arg1 : FVec F S11008 .f32) (main_arg2 : FVec F S2250000 .f32) (main_arg3 : IVec S11008x2048 32) (main_arg4 : IVec S2250000 32) (main_arg5 : IVec S2250000 32) : IVec S_ 1 :=
  let main_v0 : FVec F S2x1024x4096 .f32 := Host.absf main_arg0
  let main_cst : FVec F S_ .f32 := constant S_ .f32 0x7F800000#32
  let main_v1 : FVec F S2x1024x4096 .f32 := broadcastInDim S2x1024x4096 ![] bcast_S_S2x1024x4096 main_cst
  let main_v2 : IVec S2x1024x4096 1 := cmpf .olt main_v0 main_v1
  let main_c : IVec S_ 1 := constantI S_ 1 1#1
  let main_v3 : IVec S_ 1 := (fun x v => Host.reduce IntOp.andi x v reducesTo_S2x1024x4096_S_d0_1_2 h_S_) main_v2 main_c
  let main_v4 : FVec F S11008 .f32 := Host.absf main_arg1
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S2250000 .f32 := Host.absf main_arg2
  let main_cst_2 : FVec F S_ .f32 := constant S_ .f32 0x7F800000#32
  let main_v10 : FVec F S2250000 .f32 := broadcastInDim S2250000 ![] bcast_S_S2250000 main_cst_2
  let main_v11 : IVec S2250000 1 := cmpf .olt main_v9 main_v10
  let main_c_3 : IVec S_ 1 := constantI S_ 1 1#1
  let main_v12 : IVec S_ 1 := (fun x v => Host.reduce IntOp.andi x v reducesTo_S2250000_S_d0 h_S_) main_v11 main_c_3
  let main_v13 : IVec S_ 1 := andi main_v8 main_v12
  main_v13
-- ==== Kernel.lean ====
abbrev S2x1024x4096 : Shape := ⟨3, ![2, 1024, 4096]⟩
abbrev S11008 : Shape := ⟨1, ![11008]⟩
abbrev S2250000 : Shape := ⟨1, ![2250000]⟩
abbrev S11008x2048 : Shape := ⟨2, ![11008, 2048]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S11008x1 : Shape := ⟨2, ![11008, 1]⟩
abbrev S2250000x1 : Shape := ⟨2, ![2250000, 1]⟩
abbrev S2250000x2 : Shape := ⟨2, ![2250000, 2]⟩
abbrev S2048x4096 : Shape := ⟨2, ![2048, 4096]⟩
abbrev S2048x11008 : Shape := ⟨2, ![2048, 11008]⟩
abbrev S512x4096 : Shape := ⟨2, ![512, 4096]⟩
abbrev S256x4096 : Shape := ⟨2, ![256, 4096]⟩
abbrev S512x256 : Shape := ⟨2, ![512, 256]⟩
abbrev S2x1024x11008 : Shape := ⟨3, ![2, 1024, 11008]⟩

abbrev nBuf : Space → Nat
  | .hbm => 55
  | .vmem => 6
  | .smem => 0
  | _ => 0

abbrev bufTy : (tb : Table) → Fin (tcTables nBuf tb) → BufTy
  | .hbm, ⟨0, _⟩ => ⟨S2x1024x4096, .f32⟩
  | .hbm, ⟨1, _⟩ => ⟨S11008, .f32⟩
  | .hbm, ⟨2, _⟩ => ⟨S2250000, .f32⟩
  | .hbm, ⟨3, _⟩ => ⟨S11008x2048, .i32⟩
  | .hbm, ⟨4, _⟩ => ⟨S2250000, .i32⟩
  | .hbm, ⟨5, _⟩ => ⟨S2250000, .i32⟩
  | .hbm, ⟨6, _⟩ => ⟨S_, .i32⟩
  | .hbm, ⟨7, _⟩ => ⟨S11008x2048, .i32⟩
  | .hbm, ⟨8, _⟩ => ⟨S11008x2048, .i32⟩
  | .hbm, ⟨9, _⟩ => ⟨S_, .i32⟩
  | .hbm, ⟨10, _⟩ => ⟨S11008x2048, .i32⟩
  | .hbm, ⟨11, _⟩ => ⟨S11008x2048, .i32⟩
  | .hbm, ⟨12, _⟩ => ⟨S_, .i32⟩
  | .hbm, ⟨13, _⟩ => ⟨S11008x2048, .i32⟩
  | .hbm, ⟨14, _⟩ => ⟨S11008x2048, .i32⟩
  | .hbm, ⟨15, _⟩ => ⟨S11008x2048x1, .i32⟩
  | .hbm, ⟨16, _⟩ => ⟨S11008x2048x1, .i32⟩
  | .hbm, ⟨17, _⟩ => ⟨S11008x2048x2, .i32⟩
  | .hbm, ⟨18, _⟩ => ⟨S11008x4096, .i32⟩
  | .hbm, ⟨19, _⟩ => ⟨S11008x4096, .f32⟩
  | .hbm, ⟨20, _⟩ => ⟨S_, .f32⟩
  | .hbm, ⟨21, _⟩ => ⟨S11008x4096, .f32⟩
  | .hbm, ⟨22, _⟩ => ⟨S11008x4096, .f32⟩
  | .hbm, ⟨23, _⟩ => ⟨S11008x1, .f32⟩
  | .hbm, ⟨24, _⟩ => ⟨S11008x4096, .f32⟩
  | .hbm, ⟨25, _⟩ => ⟨S11008x4096, .f32⟩
  | .hbm, ⟨26, _⟩ => ⟨S_, .f32⟩
  | .hbm, ⟨27, _⟩ => ⟨S11008x4096, .f32⟩
  | .hbm, ⟨28, _⟩ => ⟨S_, .i32⟩
  | .hbm, ⟨29, _⟩ => ⟨S2250000, .i32⟩
  | .hbm, ⟨30, _⟩ => ⟨S2250000, .i1⟩
  | .hbm, ⟨31, _⟩ => ⟨S_, .i32⟩
  | .hbm, ⟨32, _⟩ => ⟨S2250000, .i32⟩
  | .hbm, ⟨33, _⟩ => ⟨S2250000, .i32⟩
  | .hbm, ⟨34, _⟩ => ⟨S2250000, .i32⟩
  | .hbm, ⟨35, _⟩ => ⟨S_, .i32⟩
  | .hbm, ⟨36, _⟩ => ⟨S2250000, .i32⟩
  | .hbm, ⟨37, _⟩ => ⟨S2250000, .i1⟩
  | .hbm, ⟨38, _⟩ => ⟨S_, .i32⟩
  | .hbm, ⟨39, _⟩ => ⟨S2250000, .i32⟩
  | .hbm, ⟨40, _⟩ => ⟨S2250000, .i32⟩
  | .hbm, ⟨41, _⟩ => ⟨S2250000, .i32⟩
  | .hbm, ⟨42, _⟩ => ⟨S2250000x1, .i32⟩
  | .hbm, ⟨43, _⟩ => ⟨S2250000x1, .i32⟩
  | .hbm, ⟨44, _⟩ => ⟨S2250000x2, .i32⟩
  | .hbm, ⟨45, _⟩ => ⟨S11008x4096, .f32⟩
  | .hbm, ⟨46, _⟩ => ⟨S_, .f32⟩
  | .hbm, ⟨47, _⟩ => ⟨S11008x4096, .f32⟩
  | .hbm, ⟨48, _⟩ => ⟨S11008x4096, .f32⟩
  | .hbm, ⟨49, _⟩ => ⟨S11008x4096, .f32⟩
  | .hbm, ⟨50, _⟩ => ⟨S2048x4096, .f32⟩
  | .hbm, ⟨51, _⟩ => ⟨S2048x4096, .bf16⟩
  | .hbm, ⟨52, _⟩ => ⟨S11008x4096, .bf16⟩
  | .hbm, ⟨53, _⟩ => ⟨S2048x11008, .f32⟩
  | .hbm, ⟨54, _⟩ => ⟨S2x1024x11008, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S512x256, .f32⟩
  | .local _ .vmem, ⟨5, _⟩ => ⟨S512x256, .f32⟩
  | _, _ => ⟨S2x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  bcast_S_S11008x4096 : S_.BroadcastsInDim S11008x4096 (![] : Fin 0 → Fin S11008x4096.rank)
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S_S2250000 : S_.BroadcastsInDim S2250000 (![] : Fin 0 → Fin S2250000.rank)
  bcast_S2250000_S2250000x1_0 : S2250000.BroadcastsInDim S2250000x1 (![0] : Fin 1 → Fin S2250000x1.rank)
  concatenates_S2250000x1_S2250000x1_S2250000x2_d1 : Shape.Concatenates [S2250000x1, S2250000x1] S2250000x2 1
  shapeCasts_S2x1024x4096_S2048x4096 : S2x1024x4096.ShapeCasts S2048x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x256_S512x256_0_0 : ∀ a, (![0, 0] : Fin 2 → Nat) a + S512x256.size a ≤ S512x256.size a
  h_S512x256 : 0 < S512x256.numel
  shapeCasts_S2048x11008_S2x1024x11008 : S2048x11008.ShapeCasts S2x1024x11008
  scatter_S11008x4096_S2250000x2_S2250000_n_01_01_1_wf : ScatterDims.WF S11008x4096 S2250000x2 S2250000 [] [0, 1] [0, 1] 1
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S2048x4096.size a
  hwx0_0 : ∀ i : grid0.Coords, EltTy.bits .bf16 = 32 ∨ (Rect.block (s := S2048x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S2048x11008.size a
  hwx0_2 : ∀ i : grid0.Coords, EltTy.bits .f32 = 32 ∨ (Rect.block (s := S2048x11008) S512x256.size (cc0_transform_2 i) (hinb0_2 i)).WholeWords (EltTy.packing .f32)

variable [Facts₀]

def scatter_S11008x4096_S2250000x2_S2250000_n_01_01_1 : ScatterDims S11008x4096 S2250000x2 S2250000 where
  updateWindowDims := []
  insertedWindowDims := [0, 1]
  scatterDimsToOperandDims := [0, 1]
  indexVectorDim := 1
  wf := scatter_S11008x4096_S2250000x2_S2250000_n_01_01_1_wf
def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v35) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x1024x4096 : Shape := ⟨3, ![2, 1024, 4096]⟩
abbrev S11008 : Shape := ⟨1, ![11008]⟩
abbrev S2250000 : Shape := ⟨1, ![2250000]⟩
abbrev S11008x2048 : Shape := ⟨2, ![11008, 2048]⟩
abbrev S_ : Shape := ⟨0, ![]⟩
abbrev S11008x2048x1 : Shape := ⟨3, ![11008, 2048, 1]⟩
abbrev S11008x2048x2 : Shape := ⟨3, ![11008, 2048, 2]⟩
abbrev S11008x4096 : Shape := ⟨2, ![11008, 4096]⟩
abbrev S11008x1 : Shape := ⟨2, ![11008, 1]⟩
abbrev S2250000x1 : Shape := ⟨2, ![2250000, 1]⟩
abbrev S2250000x2 : Shape := ⟨2, ![2250000, 2]⟩
abbrev S2048x4096 : Shape := ⟨2, ![2048, 4096]⟩
abbrev S4096x11008 : Shape := ⟨2, ![4096, 11008]⟩
abbrev S2048x11008 : Shape := ⟨2, ![2048, 11008]⟩
abbrev S2x1024x11008 : Shape := ⟨3, ![2, 1024, 11008]⟩

abbrev nBuf : Space → Nat
  | .hbm => 54
  | .vmem => 0
  | .smem => 0
  | _ => 0

abbrev bufTy : (tb : Table) → Fin (tcTables nBuf tb) → BufTy
  | .hbm, ⟨0, _⟩ => ⟨S2x1024x4096, .f32⟩
  | .hbm, ⟨1, _⟩ => ⟨S11008, .f32⟩
  | .hbm, ⟨2, _⟩ => ⟨S2250000, .f32⟩
  | .hbm, ⟨3, _⟩ => ⟨S11008x2048, .i32⟩
  | .hbm, ⟨4, _⟩ => ⟨S2250000, .i32⟩
  | .hbm, ⟨5, _⟩ => ⟨S2250000, .i32⟩
  | .hbm, ⟨6, _⟩ => ⟨S_, .i32⟩
  | .hbm, ⟨7, _⟩ => ⟨S11008x2048, .i32⟩
  | .hbm, ⟨8, _⟩ => ⟨S11008x2048, .i32⟩
  | .hbm, ⟨9, _⟩ => ⟨S_, .i32⟩
  | .hbm, ⟨10, _⟩ => ⟨S11008x2048, .i32⟩
  | .hbm, ⟨11, _⟩ => ⟨S11008x2048, .i32⟩
  | .hbm, ⟨12, _⟩ => ⟨S_, .i32⟩
  | .hbm, ⟨13, _⟩ => ⟨S11008x2048, .i32⟩
  | .hbm, ⟨14, _⟩ => ⟨S11008x2048, .i32⟩
  | .hbm, ⟨15, _⟩ => ⟨S11008x2048x1, .i32⟩
  | .hbm, ⟨16, _⟩ => ⟨S11008x2048x1, .i32⟩
  | .hbm, ⟨17, _⟩ => ⟨S11008x2048x2, .i32⟩
  | .hbm, ⟨18, _⟩ => ⟨S11008x4096, .i32⟩
  | .hbm, ⟨19, _⟩ => ⟨S11008x4096, .f32⟩
  | .hbm, ⟨20, _⟩ => ⟨S_, .f32⟩
  | .hbm, ⟨21, _⟩ => ⟨S11008x4096, .f32⟩
  | .hbm, ⟨22, _⟩ => ⟨S11008x4096, .f32⟩
  | .hbm, ⟨23, _⟩ => ⟨S11008x1, .f32⟩
  | .hbm, ⟨24, _⟩ => ⟨S11008x4096, .f32⟩
  | .hbm, ⟨25, _⟩ => ⟨S11008x4096, .f32⟩
  | .hbm, ⟨26, _⟩ => ⟨S_, .f32⟩
  | .hbm, ⟨27, _⟩ => ⟨S11008x4096, .f32⟩
  | .hbm, ⟨28, _⟩ => ⟨S_, .i32⟩
  | .hbm, ⟨29, _⟩ => ⟨S2250000, .i32⟩
  | .hbm, ⟨30, _⟩ => ⟨S2250000, .i1⟩
  | .hbm, ⟨31, _⟩ => ⟨S_, .i32⟩
  | .hbm, ⟨32, _⟩ => ⟨S2250000, .i32⟩
  | .hbm, ⟨33, _⟩ => ⟨S2250000, .i32⟩
  | .hbm, ⟨34, _⟩ => ⟨S2250000, .i32⟩
  | .hbm, ⟨35, _⟩ => ⟨S_, .i32⟩
  | .hbm, ⟨36, _⟩ => ⟨S2250000, .i32⟩
  | .hbm, ⟨37, _⟩ => ⟨S2250000, .i1⟩
  | .hbm, ⟨38, _⟩ => ⟨S_, .i32⟩
  | .hbm, ⟨39, _⟩ => ⟨S2250000, .i32⟩
  | .hbm, ⟨40, _⟩ => ⟨S2250000, .i32⟩
  | .hbm, ⟨41, _⟩ => ⟨S2250000, .i32⟩
  | .hbm, ⟨42, _⟩ => ⟨S2250000x1, .i32⟩
  | .hbm, ⟨43, _⟩ => ⟨S2250000x1, .i32⟩
  | .hbm, ⟨44, _⟩ => ⟨S2250000x2, .i32⟩
  | .hbm, ⟨45, _⟩ => ⟨S11008x4096, .f32⟩
  | .hbm, ⟨46, _⟩ => ⟨S_, .f32⟩
  | .hbm, ⟨47, _⟩ => ⟨S11008x4096, .f32⟩
  | .hbm, ⟨48, _⟩ => ⟨S11008x4096, .f32⟩
  | .hbm, ⟨49, _⟩ => ⟨S11008x4096, .f32⟩
  | .hbm, ⟨50, _⟩ => ⟨S2048x4096, .f32⟩
  | .hbm, ⟨51, _⟩ => ⟨S4096x11008, .f32⟩
  | .hbm, ⟨52, _⟩ => ⟨S2048x11008, .f32⟩
  | .hbm, ⟨53, _⟩ => ⟨S2x1024x11008, .f32⟩
  | _, _ => ⟨S2x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S_S11008x2048 : S_.BroadcastsInDim S11008x2048 (![] : Fin 0 → Fin S11008x2048.rank)
  bcast_S11008x2048_S11008x2048x1_0_1 : S11008x2048.BroadcastsInDim S11008x2048x1 (![0, 1] : Fin 2 → Fin S11008x2048x1.rank)
  concatenates_S11008x2048x1_S11008x2048x1_S11008x2048x2_d2 : Shape.Concatenates [S11008x2048x1, S11008x2048x1] S11008x2048x2 2
  shapeCasts_S11008x2048x2_S11008x4096 : S11008x2048x2.ShapeCasts S11008x4096
  bcast_S_S11008x4096 : S_.BroadcastsInDim S11008x4096 (![] : Fin 0 → Fin S11008x4096.rank)
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S_S2250000 : S_.BroadcastsInDim S2250000 (![] : Fin 0 → Fin S2250000.rank)
  bcast_S2250000_S2250000x1_0 : S2250000.BroadcastsInDim S2250000x1 (![0] : Fin 1 → Fin S2250000x1.rank)
  concatenates_S2250000x1_S2250000x1_S2250000x2_d1 : Shape.Concatenates [S2250000x1, S2250000x1] S2250000x2 1
  shapeCasts_S2x1024x4096_S2048x4096 : S2x1024x4096.ShapeCasts S2048x4096
  transposes_S11008x4096_S4096x11008_1_0 : S11008x4096.Transposes [1, 0] S4096x11008
  shapeCasts_S2048x11008_S2x1024x11008 : S2048x11008.ShapeCasts S2x1024x11008
  scatter_S11008x4096_S2250000x2_S2250000_n_01_01_1_wf : ScatterDims.WF S11008x4096 S2250000x2 S2250000 [] [0, 1] [0, 1] 1
  dot_S2048x4096_S4096x11008_S2048x11008_1_0_0_1_n_n_wf : DotDims.WF S2048x4096 S4096x11008 S2048x11008 [1] [0] [0] [1] [] []

variable [Facts₀]

def scatter_S11008x4096_S2250000x2_S2250000_n_01_01_1 : ScatterDims S11008x4096 S2250000x2 S2250000 where
  updateWindowDims := []
  insertedWindowDims := [0, 1]
  scatterDimsToOperandDims := [0, 1]
  indexVectorDim := 1
  wf := scatter_S11008x4096_S2250000x2_S2250000_n_01_01_1_wf
def dot_S2048x4096_S4096x11008_S2048x11008_1_0_0_1_n_n : DotDims S2048x4096 S4096x11008 S2048x11008 where
  lhsContracting := [1]
  rhsContracting := [0]
  lhsNonContracting := [0]
  rhsNonContracting := [1]
  lhsBatch := []
  rhsBatch := []
  wf := dot_S2048x4096_S4096x11008_S2048x11008_1_0_0_1_n_n_wf

class Facts : Prop extends Facts₀ where

variable [Facts]
-- ==== Proof.RowDot.lean ====
/-
  The one function both programs compute.  With `x` the activations as a 2048 × 4096 matrix and `w` the dense
  weight as an 11008 × 4096 matrix, entry (r, o) of the result is the dot product of row `r` of `x` with row `o`
  of `w`:  out[r, o] = Σ_k x[r, k] · w[o, k],  k over the 4096 shared columns.  Neither program splits the
  4096 columns, so the two sides are the SAME finite sum on the extended reals; no law that needs finiteness
  (distributivity, cancellation) is used anywhere, only that a sum may be re-indexed along a bijection.
-/
import Idealize.ShloMosaic.PureOps.Ideal
import Idealize.ShloMosaic.PureOps.Ideal.Laws
import Idealize.ShloMosaic.Lib.ValueIdx

noncomputable section

namespace Cert.RowDot

open Idealize.ShloMosaic Idealize.ShloMosaic.ValueIdx
open scoped BigOperators

/-- The activations as a matrix, the dense weight, and their product against the weight's transpose. -/
abbrev SX : Shape := ⟨2, ![2048, 4096]⟩
abbrev SW : Shape := ⟨2, ![11008, 4096]⟩
abbrev SO : Shape := ⟨2, ![2048, 11008]⟩

/-- Row `r` of an M × 4096 matrix against row `o` of an N × 4096 matrix: the sum over the 4096 columns of the
    products.  Stated over coordinates of literal type so that it reads the same on a block (512 rows against 256)
    and on the whole arrays (2048 rows against 11008). -/
def dotRow {M N : Nat} (x : (⟨2, ![M, 4096]⟩ : Shape).Idx → EReal) (w : (⟨2, ![N, 4096]⟩ : Shape).Idx → EReal)
    (r : Fin M) (o : Fin N) : EReal :=
  ∑ k : Fin 4096, x (ix2 r k) * w (ix2 o k)

/-- The whole result: entry `i = (r, o)` is row `r` of `x` against row `o` of `w`. -/
def prodT (x : SX.Idx → EReal) (w : SW.Idx → EReal) : SO.Idx → EReal :=
  fun i => dotRow (M := 2048) (N := 11008) x w (i 0) (i 1)

theorem prodT_apply (x : SX.Idx → EReal) (w : SW.Idx → EReal) (r : Fin 2048) (o : Fin 11008) :
    prodT x w (ix2 r o) = dotRow (M := 2048) (N := 11008) x w r o := rfl

/-- Two row products agree when the rows they read agree, column by column. -/
theorem dotRow_congr {M N M' N' : Nat}
    (x : (⟨2, ![M, 4096]⟩ : Shape).Idx → EReal) (w : (⟨2, ![N, 4096]⟩ : Shape).Idx → EReal)
    (x' : (⟨2, ![M', 4096]⟩ : Shape).Idx → EReal) (w' : (⟨2, ![N', 4096]⟩ : Shape).Idx → EReal)
    (r : Fin M) (o : Fin N) (r' : Fin M') (o' : Fin N')
    (hx : ∀ k : Fin 4096, x (ix2 r k) = x' (ix2 r' k)) (hw : ∀ k : Fin 4096, w (ix2 o k) = w' (ix2 o' k)) :
    dotRow x w r o = dotRow x' w' r' o' :=
  Finset.sum_congr rfl fun k _ => by rw [hx k, hw k]

end Cert.RowDot

end
-- ==== Proof.BlockProduct.lean ====
/-
  What one grid point computes.  The body loads a 512 × 4096 block of the activations and a 256 × 4096 block of the
  weight and stores their product against the transpose, accumulated into zero: entry (p, q) of the stored
  512 × 256 tile is the dot product of row `p` of the first block with row `q` of the second, over all 4096
  columns at once (the contraction is not split over the grid).
  The matrix unit's sum runs over the contraction shape's index type; it has one axis of extent 4096, so the sum is
  re-indexed to `Fin 4096`, and the two operand indices at (p, q) and column k are (p, k) and (q, k): the left
  operand keeps its row axis and contracts its column axis, and so does the right one.
-/
import proofs.«402476_j8194797601329_1_alg».proof.Proof.Gen.KernelIdeal.Skeleton
import proofs.«402476_j8194797601329_1_alg».proof.Proof.RowDot
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Cert.RowDot
open Idealize.ShloMosaic Idealize.ShloMosaic.ValueIdx
open scoped BigOperators

/-! ## The operand indices of the tile's product, axis by axis -/

/-- The left operand's row is the output's row. -/
theorem lhs_axis0 (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide),
    dif_pos (show (0 : Fin S512x4096.rank) ∈ dot_S512x4096_S256x4096_S512x256_1_1_0_0_n_n.lhsNonContracting by decide)]
  rfl

/-- The left operand's column is the contracted coordinate. -/
theorem lhs_axis1 (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q

/-- The right operand's row is the output's column: the weight block is read row against row, never transposed. -/
theorem rhs_axis0 (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide),
    dif_pos (show (0 : Fin S256x4096.rank) ∈ dot_S512x4096_S256x4096_S512x256_1_1_0_0_n_n.rhsNonContracting by decide)]
  rfl

/-- The right operand's column is the contracted coordinate. -/
theorem rhs_axis1 (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-! ## The stored tile, entry by entry -/

/-- Entry (p, q) of the tile the body stores is row `p` of the activation block against row `q` of the weight
    block: the identity shape casts drop, the product into the zero accumulator is the bare sum over the contraction
    index, and that sum is re-indexed along the one contracted axis. -/
theorem tile_apply (x0 : FVec Ideal S512x4096 .bf16) (x1 : FVec Ideal S256x4096 .bf16) (p : Fin 512) (q : Fin 256) :
    k0_pay1 (F := Ideal) x0 x1 (ix2 p q) = dotRow (M := 512) (N := 256) x0 x1 p q := by
  unfold k0_pay1
  rw [shapeCast_self, shapeCast_self]
  refine (Ideal.matmul_constant_zero_apply dot_S512x4096_S256x4096_S512x256_1_1_0_0_n_n none x0 x1 (ix2 p q)).trans ?_
  rw [← Equiv.sum_comp (contrEquiv1 dot_S512x4096_S256x4096_S512x256_1_1_0_0_n_n 4096 rfl rfl).symm]
  unfold dotRow
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p q)
      ((contrEquiv1 dot_S512x4096_S256x4096_S512x256_1_1_0_0_n_n 4096 rfl rfl).symm k) = ix2 p k :=
    funext fun a => Fin.ext (by
      match a with
      | ⟨0, _⟩ => exact lhs_axis0 _ _
      | ⟨1, _⟩ => exact (lhs_axis1 _ _).trans hk)
  have er : dot_S512x4096_S256x4096_S512x256_1_1_0_0_n_n.rhsIdx (ix2 p q)
      ((contrEquiv1 dot_S512x4096_S256x4096_S512x256_1_1_0_0_n_n 4096 rfl rfl).symm k) = ix2 q k :=
    funext fun a => Fin.ext (by
      match a with
      | ⟨0, _⟩ => exact rhs_axis0 _ _
      | ⟨1, _⟩ => exact (rhs_axis1 _ _).trans hk)
  rw [el, er]

end Cert.KernelIdeal.BlockProduct

end
-- ==== Proof.KernelValue.lean ====
/-
  What the kernel's result array holds after the run.
  The grid is 4 × 43.  At point (a, b) the pipeline stages rows 512·a … 512·a + 511 of the activations (all 4096
  columns), rows 256·b … 256·b + 255 of the weight (all 4096 columns), and writes back the 512 × 256 tile at rows
  512·a …, columns 256·b … of the 2048 × 11008 product.  Entry (p, q) of that tile is row `p` of the activation
  block against row `q` of the weight block, which is row 512·a + p of the activations against row 256·b + q of the
  weight: the tile is the restriction of ONE whole-array function, the rows-against-rows product.  The 172 tiles
  cover the array (4·512 = 2048, 43·256 = 11008), so after the run the array is that function.
  Before the region the host builds the weight and flattens the activations; both are narrowed to bf16 for the
  matrix unit, which on the extended reals changes nothing.  The weight is kept as the reference's own named
  stage of arguments 1 to 5: the two programs' host lines are the same operations, so the kernel's composed term
  unfolds to it.
-/
import proofs.«402476_j8194797601329_1_alg».proof.Proof.Gen.KernelIdeal.Frame
import proofs.«402476_j8194797601329_1_alg».proof.Proof.Gen.ReferenceIdeal.Read
import proofs.«402476_j8194797601329_1_alg».proof.Proof.RowDot
import proofs.«402476_j8194797601329_1_alg».proof.Proof.BlockProduct
import Idealize.ShloMosaic.Lib.Pipeline.Value
import Idealize.ShloMosaic.Lib.StableHlo.Run
import Idealize.ShloMosaic.Lib.ValueIdx

set_option maxRecDepth 16384

noncomputable section

namespace Cert.KernelIdeal.KernelValue

open Cert.KernelIdeal Cert.KernelIdeal.Gen Cert.RowDot Cert.KernelIdeal.BlockProduct
open Idealize.ShloMosaic Idealize.ShloMosaic.TcCoe Idealize.ShloMosaic.ValueIdx Idealize.ShloMosaic.StableHlo
open Idealize.SL Idealize.SL.Sem
open Idealize.ShloMosaic.Pipeline (Dat)

variable (m : (ℓ : Loc nD τ sig) → Buf (Elt Ideal) ℓ) (ρ : Dev nD → PrngReg)

/-! ## The two staged arrays, as the region finds them -/

/-- The flattened activations and the dense weight, each at its literal type. -/
abbrev xarr (c : Dev nD) : Vec Ideal S2048x4096 .bf16 := V m c main_v35
abbrev warr (c : Dev nD) : Vec Ideal S11008x4096 .bf16 := V m c main_v36

/-- The activation block and the weight block the body loads at point `t`. -/
abbrev xblk (c : Dev nD) (t : Fin cfg0.N) : Vec Ideal S512x4096 .bf16 := iblk m c 0 t
abbrev wblk (c : Dev nD) (t : Fin cfg0.N) : Vec Ideal S256x4096 .bf16 := iblk m c 1 t

/-- The reference's stages of the same host lines, at the kernel's argument arrays. -/
abbrev xflat (c : Dev nD) : Cert.RowDot.SX.Idx → EReal :=
  Cert.ReferenceIdeal.Read.val_main_v34 (F := Ideal) (m ((c : Thread nD τ).loc main_arg0))
abbrev wdense (c : Dev nD) : Cert.RowDot.SW.Idx → EReal :=
  Cert.ReferenceIdeal.Read.val_main_v33 (F := Ideal)
    (m ((c : Thread nD τ).loc main_arg1)) (m ((c : Thread nD τ).loc main_arg2)) (m ((c : Thread nD τ).loc main_arg3))
    (m ((c : Thread nD τ).loc main_arg4)) (m ((c : Thread nD τ).loc main_arg5))

set_option maxHeartbeats 2000000 in
/-- The activations' array is the argument flattened to 2048 × 4096 (then narrowed, which is the identity). -/
theorem xarr_eq (c : Dev nD) : xarr m c = xflat m c := by
  show StableHlo.after hostOps0 (fun b => m (c, b)) (Proc.devRef .tc main_v35) = _
  after_results_simp
  rfl

set_option maxHeartbeats 2000000 in
/-- The weight's array is the dense weight of arguments 1 to 5 (then narrowed, which is the identity). -/
theorem warr_eq (c : Dev nD) : warr m c = wdense m c := by
  show StableHlo.after hostOps0 (fun b => m (c, b)) (Proc.devRef .tc main_v36) = _
  after_results_simp
  rfl

/-! ## The index maps, decided once over the 172 points -/

theorem hz : (![0, 0] : Fin 2 → Nat) = fun _ => 0 := funext fun a => by fin_cases a <;> rfl

/-- The activation block moves with the tile's row block, the weight block with the tile's column block, and
    neither moves along the 4096 columns; the tile's block indices stay below 4 and 43. -/
theorem idx_facts : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3
    ∧ win0_2.index t (1 : Fin 2) ≤ 42 :=
  (by decide +kernel : ∀ t : Fin grid0.N, _)

/-- Every tile of the 4 × 43 tiling is some point's. -/
theorem idx_onto : ∀ (q0 : Fin 4) (q1 : Fin 43), ∃ t : Fin cfg0.N, win0_2.index t = ![q0.val, q1.val] :=
  (by decide +kernel : ∀ (q0 : Fin 4) (q1 : Fin 43), ∃ t : Fin grid0.N, win0_2.index t = ![q0.val, q1.val])

/-! ## What a point writes back -/

/-- The tile written back at point `t` is block `t` of the rows-against-rows product of the two staged arrays. -/
theorem flushed_eq (c : Dev nD) (t : Fin cfg0.N) :
    (dats m 0 c).flushed 2 t = ((cfg0.win 2).blk t).view.read (Elt Ideal) (prodT (xarr m c) (warr m c)) := by
  show (cfg0.win 2).cut (grid0.coords t) ((dats m 0 c).after 2 t) = _
  rw [after0_2]
  unfold out0_2
  rw [View.canon_unit_zero hz]
  simp only [View.ld_unit_zero (S := S512x4096) hz, View.ld_unit_zero (S := S256x4096) hz]
  obtain ⟨e0, e1, e2, e3, e4, e5⟩ := idx_facts t
  funext j
  obtain ⟨p, q, rfl⟩ : ∃ (p : Fin 512) (q : Fin 256), j = ix2 p q := ⟨j 0, j 1, eq_ix2 j⟩
  show k0_pay1 (F := Ideal) (xblk m c t) (wblk m c t) (ix2 p q)
      = dotRow (M := 2048) (N := 11008) (xarr m c) (warr m c)
          (((cfg0.win 2).blk t).view.emb (ix2 p q) 0) (((cfg0.win 2).blk t).view.emb (ix2 p q) 1)
  refine (tile_apply (xblk m c t) (wblk m c t) p q).trans ?_
  refine dotRow_congr (M := 512) (N := 256) (M' := 2048) (N' := 11008) (xblk m c t) (wblk m c t) (xarr m c) (warr m c)
    p q (((cfg0.win 2).blk t).view.emb (ix2 p q) 0) (((cfg0.win 2).blk t).view.emb (ix2 p q) 1) (fun k => ?_) (fun k => ?_)
  · show V m c main_v35 (((cfg0.win 0).blk t).view.emb (ix2 p k))
        = V m c main_v35 (ix2 (((cfg0.win 2).blk t).view.emb (ix2 p q) 0) k)
    refine congrArg (V m c main_v35) (funext fun a => Fin.ext ?_)
    match a with
    | ⟨0, _⟩ =>
      show win0_0.index t (0 : Fin 2) * 512 + 1 * p.val = win0_2.index t (0 : Fin 2) * 512 + 1 * p.val
      omega
    | ⟨1, _⟩ =>
      show win0_0.index t (1 : Fin 2) * 4096 + 1 * k.val = k.val
      omega
  · show V m c main_v36 (((cfg0.win 1).blk t).view.emb (ix2 q k))
        = V m c main_v36 (ix2 (((cfg0.win 2).blk t).view.emb (ix2 p q) 1) k)
    refine congrArg (V m c main_v36) (funext fun a => Fin.ext ?_)
    match a with
    | ⟨0, _⟩ =>
      show win0_1.index t (0 : Fin 2) * 256 + 1 * q.val = win0_2.index t (1 : Fin 2) * 256 + 1 * q.val
      omega
    | ⟨1, _⟩ =>
      show win0_1.index t (1 : Fin 2) * 4096 + 1 * k.val = k.val
      omega

/-! ## The tiles cover the array -/

/-- An entry of the product is in point `t`'s tile iff each coordinate is in the tile's range on its axis. -/
theorem mem_blk (t : Fin cfg0.N) (i : S2048x11008.Idx) :
    i ∈ ((cfg0.win 2).blk t).view.set ↔ ∀ a : Fin 2, win0_2.index t a * S512x256.size a ≤ (i a).val
      ∧ (i a).val < win0_2.index t a * S512x256.size a + S512x256.size a := by
  show i ∈ ((View.whole main_v37).slice (win0_2.rect t)).set ↔ _
  rw [View.set_slice_whole, Rect.mem_set_unit]
  exact Iff.rfl

/-- Entry (r, o) lies in the tile with row block r / 512 and column block o / 256. -/
theorem covered (i : S2048x11008.Idx) :
    ∃ t : Fin cfg0.N, (cfg0.win 2).flush t = true ∧ i ∈ ((cfg0.win 2).blk t).view.set := by
  have hi0 : (i 0).val < 2048 := (i 0).isLt
  have hi1 : (i 1).val < 11008 := (i 1).isLt
  obtain ⟨t, ht⟩ := idx_onto ⟨(i 0).val / 512, by omega⟩ ⟨(i 1).val / 256, by omega⟩
  have q0 : win0_2.index t (0 : Fin 2) = (i 0).val / 512 := congrFun ht 0
  have q1 : win0_2.index t (1 : Fin 2) = (i 1).val / 256 := congrFun ht 1
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 256 ≤ (i 1).val ∧ (i 1).val < win0_2.index t (1 : Fin 2) * 256 + 256
    omega

/-- The product's array after the run: the rows-against-rows product of the two staged arrays. -/
theorem final (c : Dev nD) : (dats m 0 c).arrAt 2 cfg0.N = prodT (xarr m c) (warr m c) :=
  (dats m 0 c).arrAt_eq_of_cover 2 (prodT (xarr m c) (warr m c)) (fun t _ => flushed_eq m c t) covered

end Cert.KernelIdeal.KernelValue

end
-- ==== Proof.KernelRun.lean ====
/-
  The kernel's result.  After the region the product's array is the rows-against-rows product of the two staged
  arrays (Proof/KernelValue.lean); the one host line after the region re-lays it from 2048 × 11008 to
  2 × 1024 × 11008 and writes nothing else, and the staged arrays are the flattened activations and the dense weight
  of the arguments.  So the run ends with the result at that re-laid product of the arguments, which themselves end
  as they began.
-/
import proofs.«402476_j8194797601329_1_alg».proof.Proof.KernelValue

set_option maxRecDepth 16384

noncomputable section

namespace Cert.KernelIdeal.KernelValue

open Cert.KernelIdeal Cert.KernelIdeal.Gen Cert.RowDot
open Idealize.ShloMosaic Idealize.ShloMosaic.TcCoe Idealize.ShloMosaic.ValueIdx Idealize.ShloMosaic.StableHlo
open Idealize.SL Idealize.SL.Sem
open Idealize.ShloMosaic.Pipeline (Dat)

variable (m : (ℓ : Loc nD τ sig) → Buf (Elt Ideal) ℓ) (ρ : Dev nD → PrngReg)

/-- What the host line after the region reads: the product's array as the region left it, in terms of the
    arguments. -/
theorem product_after (c : Dev nD) :
    Pipeline.withArrays (cfgs 0).spec c (V0 m c) (fun w => (dats m 0 c).arrAt w (cfgs 0).N) (Proc.devRef .tc main_v37)
      = prodT (xflat m c) (wdense m c) :=
  (Pipeline.withArrays_arr spec0 launch0.win.arr_inj c _ _ 2).trans
    ((final m c).trans (by rw [xarr_eq, warr_eq]))

/-- The result buffer: the product re-laid as 2 × 1024 × 11008, in terms of the argument arrays. -/
theorem result_eq (c : Dev nD) :
    Pipeline.afterTail₀ cfgs (dats m) 0 (V0 m) [hostOps1] c main_v38
      = shapeCast S2x1024x11008 (prodT (xflat m c) (wdense m c)) shapeCasts_S2048x11008_S2x1024x11008 := by
  unfold Pipeline.afterTail₀
  show StableHlo.after hostOps1 _ (Proc.devRef .tc main_v38) = _
  after_results
  refine Eq.trans ?_ (congrArg
    (fun a : S2048x11008.Idx → Elt Ideal .f32 => shapeCast S2x1024x11008 a shapeCasts_S2048x11008_S2x1024x11008)
    (product_after m c))
  rfl

/-- The kernel's run, read: the result at the re-laid product of the flattened activations with the dense weight,
    the arguments unchanged. -/
theorem run : θ_run defs (onTc (τ := τ) (main (F := Ideal))) ⟨m, fun _ => 0, ρ⟩ fun r => ∀ c : Dev nD,
      r.2.mem ((c.tc : Thread nD τ).loc main_v38)
        = shapeCast S2x1024x11008 (prodT (xflat m c) (wdense m c)) shapeCasts_S2048x11008_S2x1024x11008
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v38 (Pipeline.mem_restRefs_of main_v38 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KernelValue

end
-- ==== Proof.RefProduct.lean ====
/-
  What the reference computes, in the same words as the kernel.  The reference transposes the weight to
  4096 × 11008 and contracts the activations' columns with the transposed weight's rows; reading the transpose back,
  entry (r, o) is Σ_k x[r, k] · w[o, k]: row `r` of the activations against row `o` of the (untransposed) weight.
  The weight itself — int4 nibbles unpacked and scaled, plus the scattered sparse correction — is the same host
  computation in both programs and is kept as ONE named function of arguments 1 to 5 throughout; nothing here looks
  inside it.
-/
import proofs.«402476_j8194797601329_1_alg».proof.Proof.Gen.ReferenceIdeal.Read
import proofs.«402476_j8194797601329_1_alg».proof.Proof.RowDot

noncomputable section

namespace Cert.ReferenceIdeal.RefProduct

open Cert.ReferenceIdeal Cert.ReferenceIdeal.Gen Cert.ReferenceIdeal.Read Cert.RowDot
open Idealize.ShloMosaic Idealize.ShloMosaic.ValueIdx
open scoped BigOperators

variable (x0 : (⟨S2x1024x4096, .f32⟩ : BufTy).Contents (Elt Ideal)) (x1 : (⟨S11008, .f32⟩ : BufTy).Contents (Elt Ideal))
  (x2 : (⟨S2250000, .f32⟩ : BufTy).Contents (Elt Ideal)) (x3 : (⟨S11008x2048, .i32⟩ : BufTy).Contents (Elt Ideal))
  (x4 x5 : (⟨S2250000, .i32⟩ : BufTy).Contents (Elt Ideal))

/-- The reference's matrix product is the rows-against-rows product of the flattened activations with the weight:
    at (r, o) the contraction's left index is (r, k), and its right index (k, o) of the transposed weight is (o, k)
    of the weight. -/
theorem product_eq :
    val_main_v36 (F := Ideal) x0 x1 x2 x3 x4 x5
      = prodT (val_main_v34 (F := Ideal) x0) (val_main_v33 (F := Ideal) x1 x2 x3 x4 x5) := by
  funext i
  obtain ⟨r, o, rfl⟩ : ∃ (r : Fin 2048) (o : Fin 11008), i = ix2 r o := ⟨i 0, i 1, eq_ix2 i⟩
  rw [val_main_v36_apply, prodT_apply]
  unfold dotRow
  refine Finset.sum_congr rfl fun k _ => ?_
  rw [val_main_v35_apply]
  have e1 : lidx_main_v36 (ix2 r o) k = ix2 r k :=
    funext fun a => Fin.ext (by match a with | ⟨0, _⟩ => rfl | ⟨1, _⟩ => rfl)
  have e2 : idx_main_v35 (ridx_main_v36 (ix2 r o) k) = ix2 o k :=
    funext fun a => Fin.ext (by match a with | ⟨0, _⟩ => rfl | ⟨1, _⟩ => rfl)
  rw [e1, e2]

/-- The reference's result: that product, re-laid from 2048 × 11008 to 2 × 1024 × 11008. -/
theorem result_eq :
    val_main_v37 (F := Ideal) x0 x1 x2 x3 x4 x5
      = shapeCast S2x1024x11008 (prodT (val_main_v34 (F := Ideal) x0) (val_main_v33 (F := Ideal) x1 x2 x3 x4 x5))
          shapeCasts_S2048x11008_S2x1024x11008 := by
  unfold val_main_v37
  rw [product_eq]

end Cert.ReferenceIdeal.RefProduct

end
-- ==== Proof.lean ====
/-
  The claim: a linear layer whose weight is stored as int4 nibbles with per-row scales plus a sparse correction.
  Both programs build the same dense 11008 × 4096 weight w on the host (unpack two nibbles per packed word, subtract
  8, scale each row, add the scatter-added sparse entries) and flatten the activations x to 2048 × 4096.
  The reference then forms x · wᵀ by one host contraction against the transposed weight.  The kernel narrows both
  operands to bf16 and forms the same product tile by tile on a 4 × 43 grid, each 512 × 256 tile one matrix-unit
  product over all 4096 columns into a zero accumulator.
  On the extended reals a change of float format is the identity and a matrix product is the plain sum
  Σ_k x[r, k] · w[o, k]; the kernel never splits the 4096 columns, so both programs compute, entry by entry, the same
  finite sum (Proof/RowDot.lean).  The weight is one named function of arguments 1 to 5 on both sides and is never
  opened; only the finite sum's re-indexing along the contracted axis is used, which holds at infinite entries too,
  so the precondition is not needed for the values.
    Proof/BlockProduct.lean — a stored tile, entry by entry, is rows of the two loaded blocks against each other;
    Proof/KernelValue.lean  — the tiles are blocks of one whole-array product and cover it; the host lines before;
    Proof/KernelRun.lean    — the host line after the region, and the kernel's run read as a value;
    Proof/RefProduct.lean   — the reference's contraction against the transposed weight is the same product.
  No operation of the kernel is rewritten in its idealized form (the idealized kernel is the kernel's own text read
  on the extended reals), so the claim relating the two is trivially true.
-/
import proofs.«402476_j8194797601329_1_alg».proof.Defs
import proofs.«402476_j8194797601329_1_alg».proof.Proof.Gen.Kernel
import proofs.«402476_j8194797601329_1_alg».proof.Proof.Gen.Kernel.Skeleton
import proofs.«402476_j8194797601329_1_alg».proof.Proof.Gen.Kernel.Launch
import proofs.«402476_j8194797601329_1_alg».proof.Proof.Gen.Kernel.Points
import proofs.«402476_j8194797601329_1_alg».proof.Proof.Gen.Kernel.Frame
import proofs.«402476_j8194797601329_1_alg».proof.Proof.Gen.KernelIdeal
import proofs.«402476_j8194797601329_1_alg».proof.Proof.Gen.KernelIdeal.Skeleton
import proofs.«402476_j8194797601329_1_alg».proof.Proof.Gen.KernelIdeal.Launch
import proofs.«402476_j8194797601329_1_alg».proof.Proof.Gen.KernelIdeal.Points
import proofs.«402476_j8194797601329_1_alg».proof.Proof.Gen.KernelIdeal.Frame
import proofs.«402476_j8194797601329_1_alg».proof.Proof.Gen.ReferenceIdeal
import proofs.«402476_j8194797601329_1_alg».proof.Proof.Gen.ReferenceIdeal.Run
import proofs.«402476_j8194797601329_1_alg».proof.Proof.Gen.ReferenceIdeal.Read
import proofs.«402476_j8194797601329_1_alg».proof.Proof.Gen.Pre_finite_inputs
import proofs.«402476_j8194797601329_1_alg».proof.Proof.RowDot
import proofs.«402476_j8194797601329_1_alg».proof.Proof.BlockProduct
import proofs.«402476_j8194797601329_1_alg».proof.Proof.KernelValue
import proofs.«402476_j8194797601329_1_alg».proof.Proof.KernelRun
import proofs.«402476_j8194797601329_1_alg».proof.Proof.RefProduct
import Idealize.ShloMosaic.Adequacy
import Idealize.ShloMosaic.Init

noncomputable section

namespace Cert.Proof

open Idealize.ShloMosaic Idealize.ShloMosaic.TcCoe Idealize.SL.Sem

/-! ## The three runs terminate and leave the arguments alone -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-! ## Equal results on the extended reals -/

/-- Both runs end with the rows-against-rows product of the flattened activations with the dense weight, re-laid as
    2 × 1024 × 11008: the kernel's by its tiles (Proof/KernelValue.lean, Proof/KernelRun.lean), the reference's by its contraction against the
    transposed weight (Proof/RefProduct.lean); the arguments agree, so the two terms are one. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono
    (fun _ h c => ⟨(h c).1.trans ((Cert.ReferenceIdeal.Read.val_main_v37_eq (F := Ideal) _ _ _ _ _ _).trans ?_), (h c).2⟩)
    (Cert.ReferenceIdeal.Value.run (F := Ideal) m' ρ')
  rw [Cert.ReferenceIdeal.RefProduct.result_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
